-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S3x3x16384 : Shape := ⟨3, ![3, 3, 16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S3x3x16384 : S_.BroadcastsInDim S3x3x16384 (![] : Fin 0 → Fin S3x3x16384.rank)
  reducesTo_S3x3x16384_S_d0_1_2 : S3x3x16384.ReducesTo [0, 1, 2] S_

variable [Facts]

def fn {F : FTy → Type} [FloatOps F] (main_arg0 : FVec F S16384x4096 .f32) (main_arg1 : FVec F S3x3x16384 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S3x3x16384 .f32 := Host.absf main_arg1
  let main_cst_0 : FVec F S_ .f32 := constant S_ .f32 0x7F800000#32
  let main_v5 : FVec F S3x3x16384 .f32 := broadcastInDim S3x3x16384 ![] bcast_S_S3x3x16384 main_cst_0
  let main_v6 : IVec S3x3x16384 1 := cmpf .olt main_v4 main_v5
  let main_c_1 : IVec S_ 1 := constantI S_ 1 1#1
  let main_v7 : IVec S_ 1 := (fun x v => Host.reduce IntOp.andi x v reducesTo_S3x3x16384_S_d0_1_2 h_S_) main_v6 main_c_1
  let main_v8 : IVec S_ 1 := andi main_v3 main_v7
  main_v8
-- ==== Kernel.lean ====
abbrev S16384x4096 : Shape := ⟨2, ![16384, 4096]⟩
abbrev S3x3x16384 : Shape := ⟨3, ![3, 3, 16384]⟩
abbrev S128x128x4096 : Shape := ⟨3, ![128, 128, 4096]⟩
abbrev S3x3x128x128 : Shape := ⟨4, ![3, 3, 128, 128]⟩
abbrev S128x128x128 : Shape := ⟨3, ![128, 128, 128]⟩
abbrev S127x127x128 : Shape := ⟨3, ![127, 127, 128]⟩
abbrev S1x1x127x127 : Shape := ⟨4, ![1, 1, 127, 127]⟩
abbrev S127x127 : Shape := ⟨2, ![127, 127]⟩
abbrev S127x127x1 : Shape := ⟨3, ![127, 127, 1]⟩
abbrev S127x128x128 : Shape := ⟨3, ![127, 128, 128]⟩
abbrev S1x1x127x128 : Shape := ⟨4, ![1, 1, 127, 128]⟩
abbrev S127x128 : Shape := ⟨2, ![127, 128]⟩
abbrev S127x128x1 : Shape := ⟨3, ![127, 128, 1]⟩
abbrev S128x127x128 : Shape := ⟨3, ![128, 127, 128]⟩
abbrev S1x1x128x127 : Shape := ⟨4, ![1, 1, 128, 127]⟩
abbrev S128x127 : Shape := ⟨2, ![128, 127]⟩
abbrev S128x127x1 : Shape := ⟨3, ![128, 127, 1]⟩
abbrev S1x1x128x128 : Shape := ⟨4, ![1, 1, 128, 128]⟩
abbrev S128x128 : Shape := ⟨2, ![128, 128]⟩
abbrev S128x128x1 : Shape := ⟨3, ![128, 128, 1]⟩

abbrev nBuf : Space → Nat
  | .hbm => 7
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S3x3x16384, .f32⟩
  | .hbm, ⟨2, _⟩ => ⟨S128x128x4096, .f32⟩
  | .hbm, ⟨3, _⟩ => ⟨S3x3x128x128, .f32⟩
  | .hbm, ⟨4, _⟩ => ⟨S3x3x128x128, .bf16⟩
  | .hbm, ⟨5, _⟩ => ⟨S128x128x4096, .f32⟩
  | .hbm, ⟨6, _⟩ => ⟨S16384x4096, .f32⟩
  | .local _ .vmem, ⟨0, _⟩ => ⟨S128x128x128, .f32⟩
  | .local _ .vmem, ⟨1, _⟩ => ⟨S128x128x128, .f32⟩
  | .local _ .vmem, ⟨2, _⟩ => ⟨S3x3x128x128, .bf16⟩
  | .local _ .vmem, ⟨3, _⟩ => ⟨S128x128x128, .f32⟩
  | .local _ .vmem, ⟨4, _⟩ => ⟨S128x128x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384x4096_S128x128x4096 : S16384x4096.ShapeCasts S128x128x4096
  shapeCasts_S3x3x16384_S3x3x128x128 : S3x3x16384.ShapeCasts S3x3x128x128
  bitsLt_bf16_f32 : FTy.bits .bf16 < FTy.bits .f32
  inb_S128x128x128_S128x128x128_0_0_0 : ∀ a, (![0, 0, 0] : Fin 3 → Nat) a + S128x128x128.size a ≤ S128x128x128.size a
  h_S128x128x128 : 0 < S128x128x128.numel
  shapeCasts_S128x128x128_S128x128x128 : S128x128x128.ShapeCasts S128x128x128
  slices_S128x128x128_o1_1_0_S127x127x128 : S128x128x128.Slices ![1, 1, 0] S127x127x128
  inb_S3x3x128x128_S1x1x127x127_0_0_1_1 : ∀ a, (![0, 0, 1, 1] : Fin 4 → Nat) a + S1x1x127x127.size a ≤ S3x3x128x128.size a
  h_S1x1x127x127 : 0 < S1x1x127x127.numel
  shapeCasts_S1x1x127x127_S127x127 : S1x1x127x127.ShapeCasts S127x127
  shapeCasts_S127x127_S127x127x1 : S127x127.ShapeCasts S127x127x1
  broadcasts_S127x127x1_S127x127x128 : S127x127x1.Broadcasts S127x127x128
  inb_S128x128x128_S127x127x128_0_0_0 : ∀ a, (![0, 0, 0] : Fin 3 → Nat) a + S127x127x128.size a ≤ S128x128x128.size a
  h_S127x127x128 : 0 < S127x127x128.numel
  shapeCasts_S127x127x128_S127x127x128 : S127x127x128.ShapeCasts S127x127x128
  slices_S128x128x128_o1_0_0_S127x128x128 : S128x128x128.Slices ![1, 0, 0] S127x128x128
  inb_S3x3x128x128_S1x1x127x128_0_1_1_0 : ∀ a, (![0, 1, 1, 0] : Fin 4 → Nat) a + S1x1x127x128.size a ≤ S3x3x128x128.size a
  h_S1x1x127x128 : 0 < S1x1x127x128.numel
  shapeCasts_S1x1x127x128_S127x128 : S1x1x127x128.ShapeCasts S127x128
  shapeCasts_S127x128_S127x128x1 : S127x128.ShapeCasts S127x128x1
  broadcasts_S127x128x1_S127x128x128 : S127x128x1.Broadcasts S127x128x128
  inb_S128x128x128_S127x128x128_0_0_0 : ∀ a, (![0, 0, 0] : Fin 3 → Nat) a + S127x128x128.size a ≤ S128x128x128.size a
  h_S127x128x128 : 0 < S127x128x128.numel
  shapeCasts_S127x128x128_S127x128x128 : S127x128x128.ShapeCasts S127x128x128
  slices_S128x128x128_o1_0_0_S127x127x128 : S128x128x128.Slices ![1, 0, 0] S127x127x128
  inb_S3x3x128x128_S1x1x127x127_0_2_1_0 : ∀ a, (![0, 2, 1, 0] : Fin 4 → Nat) a + S1x1x127x127.size a ≤ S3x3x128x128.size a
  inb_S128x128x128_S127x127x128_0_1_0 : ∀ a, (![0, 1, 0] : Fin 3 → Nat) a + S127x127x128.size a ≤ S128x128x128.size a
  slices_S128x128x128_o0_1_0_S128x127x128 : S128x128x128.Slices ![0, 1, 0] S128x127x128
  inb_S3x3x128x128_S1x1x128x127_1_0_0_1 : ∀ a, (![1, 0, 0, 1] : Fin 4 → Nat) a + S1x1x128x127.size a ≤ S3x3x128x128.size a
  h_S1x1x128x127 : 0 < S1x1x128x127.numel
  shapeCasts_S1x1x128x127_S128x127 : S1x1x128x127.ShapeCasts S128x127
  shapeCasts_S128x127_S128x127x1 : S128x127.ShapeCasts S128x127x1
  broadcasts_S128x127x1_S128x127x128 : S128x127x1.Broadcasts S128x127x128
  inb_S128x128x128_S128x127x128_0_0_0 : ∀ a, (![0, 0, 0] : Fin 3 → Nat) a + S128x127x128.size a ≤ S128x128x128.size a
  h_S128x127x128 : 0 < S128x127x128.numel
  shapeCasts_S128x127x128_S128x127x128 : S128x127x128.ShapeCasts S128x127x128
  inb_S3x3x128x128_S1x1x128x128_1_1_0_0 : ∀ a, (![1, 1, 0, 0] : Fin 4 → Nat) a + S1x1x128x128.size a ≤ S3x3x128x128.size a
  h_S1x1x128x128 : 0 < S1x1x128x128.numel
  shapeCasts_S1x1x128x128_S128x128 : S1x1x128x128.ShapeCasts S128x128
  shapeCasts_S128x128_S128x128x1 : S128x128.ShapeCasts S128x128x1
  broadcasts_S128x128x1_S128x128x128 : S128x128x1.Broadcasts S128x128x128
  slices_S128x128x128_o0_0_0_S128x127x128 : S128x128x128.Slices ![0, 0, 0] S128x127x128
  inb_S3x3x128x128_S1x1x128x127_1_2_0_0 : ∀ a, (![1, 2, 0, 0] : Fin 4 → Nat) a + S1x1x128x127.size a ≤ S3x3x128x128.size a
  inb_S128x128x128_S128x127x128_0_1_0 : ∀ a, (![0, 1, 0] : Fin 3 → Nat) a + S128x127x128.size a ≤ S128x128x128.size a
  slices_S128x128x128_o0_1_0_S127x127x128 : S128x128x128.Slices ![0, 1, 0] S127x127x128
  inb_S3x3x128x128_S1x1x127x127_2_0_0_1 : ∀ a, (![2, 0, 0, 1] : Fin 4 → Nat) a + S1x1x127x127.size a ≤ S3x3x128x128.size a
  inb_S128x128x128_S127x127x128_1_0_0 : ∀ a, (![1, 0, 0] : Fin 3 → Nat) a + S127x127x128.size a ≤ S128x128x128.size a
  slices_S128x128x128_o0_0_0_S127x128x128 : S128x128x128.Slices ![0, 0, 0] S127x128x128
  inb_S3x3x128x128_S1x1x127x128_2_1_0_0 : ∀ a, (![2, 1, 0, 0] : Fin 4 → Nat) a + S1x1x127x128.size a ≤ S3x3x128x128.size a
  inb_S128x128x128_S127x128x128_1_0_0 : ∀ a, (![1, 0, 0] : Fin 3 → Nat) a + S127x128x128.size a ≤ S128x128x128.size a
  slices_S128x128x128_o0_0_0_S127x127x128 : S128x128x128.Slices ![0, 0, 0] S127x127x128
  inb_S3x3x128x128_S1x1x127x127_2_2_0_0 : ∀ a, (![2, 2, 0, 0] : Fin 4 → Nat) a + S1x1x127x127.size a ≤ S3x3x128x128.size a
  inb_S128x128x128_S127x127x128_1_1_0 : ∀ a, (![1, 1, 0] : Fin 3 → Nat) a + S127x127x128.size a ≤ S128x128x128.size a
  shapeCasts_S128x128x4096_S16384x4096 : S128x128x4096.ShapeCasts S16384x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x128.size a ≤ S128x128x4096.size a
  hwx0_0 : ∀ i : grid0.Coords, EltTy.bits .f32 = 32 ∨ (Rect.block (s := S128x128x4096) S128x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3x128x128.size a ≤ S3x3x128x128.size a
  hwx0_1 : ∀ i : grid0.Coords, EltTy.bits .bf16 = 32 ∨ (Rect.block (s := S3x3x128x128) S3x3x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128x128.size a ≤ S128x128x4096.size a
  hwx0_2 : ∀ i : grid0.Coords, EltTy.bits .f32 = 32 ∨ (Rect.block (s := S128x128x4096) S128x128x128.size (cc0_transform_2 i) (hinb0_2 i)).WholeWords (EltTy.packing .f32)

variable [Facts₀]

abbrev win0_0 : Pipeline.Window sig grid0 :=
  Pipeline.Window.ofSpec (Memref.whole main_v0) S128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x3x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S3x3x16384 : Shape := ⟨3, ![3, 3, 16384]⟩
abbrev S128x128x4096 : Shape := ⟨3, ![128, 128, 4096]⟩
abbrev S3x3x128x128 : Shape := ⟨4, ![3, 3, 128, 128]⟩
abbrev S_ : Shape := ⟨0, ![]⟩
abbrev S1x1x128x128 : Shape := ⟨4, ![1, 1, 128, 128]⟩
abbrev S128x128 : Shape := ⟨2, ![128, 128]⟩
abbrev S128x128x1 : Shape := ⟨3, ![128, 128, 1]⟩
abbrev S130x130x4096 : Shape := ⟨3, ![130, 130, 4096]⟩

abbrev nBuf : Space → Nat
  | .hbm => 105
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S3x3x16384, .f32⟩
  | .hbm, ⟨2, _⟩ => ⟨S128x128x4096, .f32⟩
  | .hbm, ⟨3, _⟩ => ⟨S3x3x128x128, .f32⟩
  | .hbm, ⟨4, _⟩ => ⟨S_, .f32⟩
  | .hbm, ⟨5, _⟩ => ⟨S128x128x4096, .f32⟩
  | .hbm, ⟨6, _⟩ => ⟨S1x1x128x128, .f32⟩
  | .hbm, ⟨7, _⟩ => ⟨S128x128, .f32⟩
  | .hbm, ⟨8, _⟩ => ⟨S128x128x1, .f32⟩
  | .hbm, ⟨9, _⟩ => ⟨S128x128x4096, .f32⟩
  | .hbm, ⟨10, _⟩ => ⟨S128x128x4096, .f32⟩
  | .hbm, ⟨11, _⟩ => ⟨S_, .i32⟩
  | .hbm, ⟨12, _⟩ => ⟨S_, .f32⟩
  | .hbm, ⟨13, _⟩ => ⟨S130x130x4096, .f32⟩
  | .hbm, ⟨14, _⟩ => ⟨S128x128x4096, .f32⟩
  | .hbm, ⟨15, _⟩ => ⟨S128x128x4096, .f32⟩
  | .hbm, ⟨16, _⟩ => ⟨S1x1x128x128, .f32⟩
  | .hbm, ⟨17, _⟩ => ⟨S128x128, .f32⟩
  | .hbm, ⟨18, _⟩ => ⟨S128x128x1, .f32⟩
  | .hbm, ⟨19, _⟩ => ⟨S128x128x4096, .f32⟩
  | .hbm, ⟨20, _⟩ => ⟨S128x128x4096, .f32⟩
  | .hbm, ⟨21, _⟩ => ⟨S_, .i32⟩
  | .hbm, ⟨22, _⟩ => ⟨S_, .f32⟩
  | .hbm, ⟨23, _⟩ => ⟨S130x130x4096, .f32⟩
  | .hbm, ⟨24, _⟩ => ⟨S128x128x4096, .f32⟩
  | .hbm, ⟨25, _⟩ => ⟨S128x128x4096, .f32⟩
  | .hbm, ⟨26, _⟩ => ⟨S1x1x128x128, .f32⟩
  | .hbm, ⟨27, _⟩ => ⟨S128x128, .f32⟩
  | .hbm, ⟨28, _⟩ => ⟨S128x128x1, .f32⟩
  | .hbm, ⟨29, _⟩ => ⟨S128x128x4096, .f32⟩
  | .hbm, ⟨30, _⟩ => ⟨S128x128x4096, .f32⟩
  | .hbm, ⟨31, _⟩ => ⟨S_, .i32⟩
  | .hbm, ⟨32, _⟩ => ⟨S_, .f32⟩
  | .hbm, ⟨33, _⟩ => ⟨S130x130x4096, .f32⟩
  | .hbm, ⟨34, _⟩ => ⟨S128x128x4096, .f32⟩
  | .hbm, ⟨35, _⟩ => ⟨S128x128x4096, .f32⟩
  | .hbm, ⟨36, _⟩ => ⟨S1x1x128x128, .f32⟩
  | .hbm, ⟨37, _⟩ => ⟨S128x128, .f32⟩
  | .hbm, ⟨38, _⟩ => ⟨S128x128x1, .f32⟩
  | .hbm, ⟨39, _⟩ => ⟨S128x128x4096, .f32⟩
  | .hbm, ⟨40, _⟩ => ⟨S128x128x4096, .f32⟩
  | .hbm, ⟨41, _⟩ => ⟨S_, .i32⟩
  | .hbm, ⟨42, _⟩ => ⟨S_, .f32⟩
  | .hbm, ⟨43, _⟩ => ⟨S130x130x4096, .f32⟩
  | .hbm, ⟨44, _⟩ => ⟨S128x128x4096, .f32⟩
  | .hbm, ⟨45, _⟩ => ⟨S128x128x4096, .f32⟩
  | .hbm, ⟨46, _⟩ => ⟨S1x1x128x128, .f32⟩
  | .hbm, ⟨47, _⟩ => ⟨S128x128, .f32⟩
  | .hbm, ⟨48, _⟩ => ⟨S128x128x1, .f32⟩
  | .hbm, ⟨49, _⟩ => ⟨S128x128x4096, .f32⟩
  | .hbm, ⟨50, _⟩ => ⟨S128x128x4096, .f32⟩
  | .hbm, ⟨51, _⟩ => ⟨S_, .i32⟩
  | .hbm, ⟨52, _⟩ => ⟨S_, .f32⟩
  | .hbm, ⟨53, _⟩ => ⟨S130x130x4096, .f32⟩
  | .hbm, ⟨54, _⟩ => ⟨S128x128x4096, .f32⟩
  | .hbm, ⟨55, _⟩ => ⟨S128x128x4096, .f32⟩
  | .hbm, ⟨56, _⟩ => ⟨S1x1x128x128, .f32⟩
  | .hbm, ⟨57, _⟩ => ⟨S128x128, .f32⟩
  | .hbm, ⟨58, _⟩ => ⟨S128x128x1, .f32⟩
  | .hbm, ⟨59, _⟩ => ⟨S128x128x4096, .f32⟩
  | .hbm, ⟨60, _⟩ => ⟨S128x128x4096, .f32⟩
  | .hbm, ⟨61, _⟩ => ⟨S_, .i32⟩
  | .hbm, ⟨62, _⟩ => ⟨S_, .f32⟩
  | .hbm, ⟨63, _⟩ => ⟨S130x130x4096, .f32⟩
  | .hbm, ⟨64, _⟩ => ⟨S128x128x4096, .f32⟩
  | .hbm, ⟨65, _⟩ => ⟨S128x128x4096, .f32⟩
  | .hbm, ⟨66, _⟩ => ⟨S1x1x128x128, .f32⟩
  | .hbm, ⟨67, _⟩ => ⟨S128x128, .f32⟩
  | .hbm, ⟨68, _⟩ => ⟨S128x128x1, .f32⟩
  | .hbm, ⟨69, _⟩ => ⟨S128x128x4096, .f32⟩
  | .hbm, ⟨70, _⟩ => ⟨S128x128x4096, .f32⟩
  | .hbm, ⟨71, _⟩ => ⟨S_, .i32⟩
  | .hbm, ⟨72, _⟩ => ⟨S_, .f32⟩
  | .hbm, ⟨73, _⟩ => ⟨S130x130x4096, .f32⟩
  | .hbm, ⟨74, _⟩ => ⟨S128x128x4096, .f32⟩
  | .hbm, ⟨75, _⟩ => ⟨S128x128x4096, .f32⟩
  | .hbm, ⟨76, _⟩ => ⟨S1x1x128x128, .f32⟩
  | .hbm, ⟨77, _⟩ => ⟨S128x128, .f32⟩
  | .hbm, ⟨78, _⟩ => ⟨S128x128x1, .f32⟩
  | .hbm, ⟨79, _⟩ => ⟨S128x128x4096, .f32⟩
  | .hbm, ⟨80, _⟩ => ⟨S128x128x4096, .f32⟩
  | .hbm, ⟨81, _⟩ => ⟨S_, .i32⟩
  | .hbm, ⟨82, _⟩ => ⟨S_, .f32⟩
  | .hbm, ⟨83, _⟩ => ⟨S130x130x4096, .f32⟩
  | .hbm, ⟨84, _⟩ => ⟨S128x128x4096, .f32⟩
  | .hbm, ⟨85, _⟩ => ⟨S128x128x4096, .f32⟩
  | .hbm, ⟨86, _⟩ => ⟨S1x1x128x128, .f32⟩
  | .hbm, ⟨87, _⟩ => ⟨S128x128, .f32⟩
  | .hbm, ⟨88, _⟩ => ⟨S128x128x1, .f32⟩
  | .hbm, ⟨89, _⟩ => ⟨S128x128x4096, .f32⟩
  | .hbm, ⟨90, _⟩ => ⟨S128x128x4096, .f32⟩
  | .hbm, ⟨91, _⟩ => ⟨S_, .i32⟩
  | .hbm, ⟨92, _⟩ => ⟨S_, .f32⟩
  | .hbm, ⟨93, _⟩ => ⟨S130x130x4096, .f32⟩
  | .hbm, ⟨94, _⟩ => ⟨S128x128x4096, .f32⟩
  | .hbm, ⟨95, _⟩ => ⟨S128x128x4096, .f32⟩
  | .hbm, ⟨96, _⟩ => ⟨S128x128x4096, .f32⟩
  | .hbm, ⟨97, _⟩ => ⟨S128x128x4096, .f32⟩
  | .hbm, ⟨98, _⟩ => ⟨S_, .f32⟩
  | .hbm, ⟨99, _⟩ => ⟨S128x128x4096, .f32⟩
  | .hbm, ⟨100, _⟩ => ⟨S128x128x4096, .f32⟩
  | .hbm, ⟨101, _⟩ => ⟨S_, .f32⟩
  | .hbm, ⟨102, _⟩ => ⟨S128x128x4096, .f32⟩
  | .hbm, ⟨103, _⟩ => ⟨S128x128x4096, .f32⟩
  | .hbm, ⟨104, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_call1_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_call2_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_call3_v0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_3 : Ref sig .tc := ⟨.hbm, 51, rfl⟩
abbrev main_call4_v0 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_4 : Ref sig .tc := ⟨.hbm, 61, rfl⟩
abbrev main_call5_v0 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_5 : Ref sig .tc := ⟨.hbm, 71, rfl⟩
abbrev main_call6_v0 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_6 : Ref sig .tc := ⟨.hbm, 81, rfl⟩
abbrev main_call7_v0 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_7 : Ref sig .tc := ⟨.hbm, 91, rfl⟩
abbrev main_call8_v0 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_8 : Ref sig .tc := ⟨.hbm, 98, rfl⟩
abbrev main_v77 : Ref sig .tc := ⟨.hbm, 99, rfl⟩
abbrev main_v78 : Ref sig .tc := ⟨.hbm, 100, rfl⟩
abbrev main_cst_9 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]

class Facts₀ : Prop where
  shapeCasts_S16384x4096_S128x128x4096 : S16384x4096.ShapeCasts S128x128x4096
  shapeCasts_S3x3x16384_S3x3x128x128 : S3x3x16384.ShapeCasts S3x3x128x128
  bcast_S_S128x128x4096 : S_.BroadcastsInDim S128x128x4096 (![] : Fin 0 → Fin S128x128x4096.rank)
  slices_S3x3x128x128_S1x1x128x128_0_0_0_0 : S3x3x128x128.Slices ![0, 0, 0, 0] S1x1x128x128
  shapeCasts_S1x1x128x128_S128x128 : S1x1x128x128.ShapeCasts S128x128
  bcast_S128x128_S128x128x1_0_1 : S128x128.BroadcastsInDim S128x128x1 (![0, 1] : Fin 2 → Fin S128x128x1.rank)
  bcast_S128x128x1_S128x128x4096_0_1_2 : S128x128x1.BroadcastsInDim S128x128x4096 (![0, 1, 2] : Fin 3 → Fin S128x128x4096.rank)
  pads_S128x128x4096_S130x130x4096_110_110_000 : S128x128x4096.Pads (![1, 1, 0] : Fin 3 → Nat) ![1, 1, 0] ![0, 0, 0] S130x130x4096
  h_S_ : 0 < S_.numel
  slices_S130x130x4096_S128x128x4096_2_2_0 : S130x130x4096.Slices ![2, 2, 0] S128x128x4096
  slices_S3x3x128x128_S1x1x128x128_0_1_0_0 : S3x3x128x128.Slices ![0, 1, 0, 0] S1x1x128x128
  slices_S130x130x4096_S128x128x4096_2_1_0 : S130x130x4096.Slices ![2, 1, 0] S128x128x4096
  slices_S3x3x128x128_S1x1x128x128_0_2_0_0 : S3x3x128x128.Slices ![0, 2, 0, 0] S1x1x128x128
  slices_S130x130x4096_S128x128x4096_2_0_0 : S130x130x4096.Slices ![2, 0, 0] S128x128x4096
  slices_S3x3x128x128_S1x1x128x128_1_0_0_0 : S3x3x128x128.Slices ![1, 0, 0, 0] S1x1x128x128
  slices_S130x130x4096_S128x128x4096_1_2_0 : S130x130x4096.Slices ![1, 2, 0] S128x128x4096
  slices_S3x3x128x128_S1x1x128x128_1_1_0_0 : S3x3x128x128.Slices ![1, 1, 0, 0] S1x1x128x128
  slices_S130x130x4096_S128x128x4096_1_1_0 : S130x130x4096.Slices ![1, 1, 0] S128x128x4096
  slices_S3x3x128x128_S1x1x128x128_1_2_0_0 : S3x3x128x128.Slices ![1, 2, 0, 0] S1x1x128x128
  slices_S130x130x4096_S128x128x4096_1_0_0 : S130x130x4096.Slices ![1, 0, 0] S128x128x4096
  slices_S3x3x128x128_S1x1x128x128_2_0_0_0 : S3x3x128x128.Slices ![2, 0, 0, 0] S1x1x128x128
  slices_S130x130x4096_S128x128x4096_0_2_0 : S130x130x4096.Slices ![0, 2, 0] S128x128x4096
  slices_S3x3x128x128_S1x1x128x128_2_1_0_0 : S3x3x128x128.Slices ![2, 1, 0, 0] S1x1x128x128
  slices_S130x130x4096_S128x128x4096_0_1_0 : S130x130x4096.Slices ![0, 1, 0] S128x128x4096
  slices_S3x3x128x128_S1x1x128x128_2_2_0_0 : S3x3x128x128.Slices ![2, 2, 0, 0] S1x1x128x128
  slices_S130x130x4096_S128x128x4096_0_0_0 : S130x130x4096.Slices ![0, 0, 0] S128x128x4096
  shapeCasts_S128x128x4096_S16384x4096 : S128x128x4096.ShapeCasts S16384x4096

variable [Facts₀]

class Facts : Prop extends Facts₀ where

variable [Facts]
-- ==== Proof.UnitPiece.lean ====
/-
  A buffer filled by a sequence of rectangular stores, read back one element at a time.

  The contents a list of stores leaves (newest first) are, at each index, the payload of the newest store whose
  rectangle holds the index. For a unit-stride rectangle given by offsets and sizes, "holds the index" is a pair of
  inequalities per axis, and the position inside the rectangle is the index minus the offsets. The two lemmas here
  read the contents at an index under the newest store (at a position the caller names) and at an index the newest
  store misses on some axis.
-/
import Idealize.ShloMosaic.Lib.Pipeline.FrameBody

namespace Cert.Stencil

open Idealize.ShloMosaic

variable {Val : EltTy → Type} [∀ e, Nonempty (Val e)] {s : Shape} {e : EltTy}

/-- Under the newest store: the index is offsets plus position on every axis, so the contents there are the store's
    payload at that position. -/
theorem canon_unit_of_mem {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- Off the newest store on axis `a`: the contents there are what the earlier stores left. -/
theorem canon_unit_of_not_mem {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L ?_
  rw [Rect.mem_set_unit]
  intro hall
  have := hall a
  omega

end Cert.Stencil
-- ==== Proof.Stencil.lean ====
/-
  The function both programs compute: a nine-point weighted stencil over a 128 × 128 grid, then the logistic.

  The grid is 128 × 128, each cell a vector along a batch axis of length `n`. For each of the nine displacements
  (dy, dx) ∈ {-1, 0, 1}², indexed by (i, j) = (dy + 1, dx + 1), the value at the source cell (h - dy, w - dx), times the
  weight that displacement has AT THE SOURCE cell, is added into the destination cell (h, w); a source cell off the grid
  contributes nothing. The nine contributions are added in the order (0,0), (0,1), …, (2,2) onto a zero, and the
  logistic function is applied to the total.

  A program that skips the addition where the source is off the grid and one that adds a zero there agree, because
  `a + 0 = a` for every extended real `a` (`step_eq`).
-/
import Idealize.ShloMosaic.PureOps.Ideal
import Idealize.ShloMosaic.PureOps.Ideal.Laws
import Idealize.ShloMosaic.Lib.ValueIdx

noncomputable section

namespace Cert.Stencil

open Idealize.ShloMosaic Idealize.ShloMosaic.ValueIdx

/-- Displacement index `i` (displacement `i - 1`) has a source row for destination row `h`: `h + 1 - i` is a row. -/
def SrcOk (i : Fin 3) (h : Fin 128) : Prop := i.val ≤ h.val + 1 ∧ h.val + 1 - i.val < 128

instance (i : Fin 3) (h : Fin 128) : Decidable (SrcOk i h) := by unfold SrcOk; exact inferInstance

/-- The source row `h + 1 - i`. -/
def src (i : Fin 3) (h : Fin 128) (ok : SrcOk i h) : Fin 128 := ⟨h.val + 1 - i.val, ok.2⟩

@[simp] theorem src_val (i : Fin 3) (h : Fin 128) (ok : SrcOk i h) : (src i h ok).val = h.val + 1 - i.val := rfl

/-- What displacement (i, j) contributes to cell (h, w) at batch position `b`: source value times the weight at the
    source, or zero when the source is off the grid. -/
def tap {n : ℕ} (xs : (⟨3, ![128, 128, n]⟩ : Shape).Idx → EReal) (ws : (⟨4, ![3, 3, 128, 128]⟩ : Shape).Idx → EReal)
    (i j : Fin 3) (h w : Fin 128) (b : Fin n) : EReal :=
  if ok : SrcOk i h ∧ SrcOk j w then
    xs (ix3 (src i h ok.1) (src j w ok.2) b) * ws (ix4 i j (src i h ok.1) (src j w ok.2))
  else 0

/-- One accumulation step as a program that only touches the cells with a source does it. -/
theorem step_eq {n : ℕ} (xs : (⟨3, ![128, 128, n]⟩ : Shape).Idx → EReal) (ws : (⟨4, ![3, 3, 128, 128]⟩ : Shape).Idx → EReal)
    (i j : Fin 3) (h w : Fin 128) (b : Fin n) (a : EReal) :
    (if ok : SrcOk i h ∧ SrcOk j w then
        a + xs (ix3 (src i h ok.1) (src j w ok.2) b) * ws (ix4 i j (src i h ok.1) (src j w ok.2))
      else a) = a + tap xs ws i j h w b := by
  unfold tap
  by_cases ok : SrcOk i h ∧ SrcOk j w
  · rw [dif_pos ok, dif_pos ok]
  · rw [dif_neg ok, dif_neg ok, add_zero]

/-- The nine contributions added in order onto the zero word. -/
def total {n : ℕ} (xs : (⟨3, ![128, 128, n]⟩ : Shape).Idx → EReal) (ws : (⟨4, ![3, 3, 128, 128]⟩ : Shape).Idx → EReal)
    (h w : Fin 128) (b : Fin n) : EReal :=
  Ideal.ofBits .f32 0x00000000#32 + tap xs ws 0 0 h w b + tap xs ws 0 1 h w b + tap xs ws 0 2 h w b
    + tap xs ws 1 0 h w b + tap xs ws 1 1 h w b + tap xs ws 1 2 h w b
    + tap xs ws 2 0 h w b + tap xs ws 2 1 h w b + tap xs ws 2 2 h w b

/-- The stencil's result: the logistic of the total, cell by cell. -/
def result {n : ℕ} (xs : (⟨3, ![128, 128, n]⟩ : Shape).Idx → EReal) (ws : (⟨4, ![3, 3, 128, 128]⟩ : Shape).Idx → EReal) :
    (⟨3, ![128, 128, n]⟩ : Shape).Idx → EReal :=
  fun y => Ideal.logistic (total xs ws (y 0) (y 1) (y 2))

end Cert.Stencil

end
-- ==== Proof.Layout.lean ====
/-
  The two layout chains of the stencil's body, read at one element.

  (1) A window of the value block: rows `sh … sh + hl - 1`, columns `sw … sw + wl - 1`, every batch position. Its
      element (p, q, r) is the block's element (sh + p, sw + q, r).
  (2) A window of one displacement's weight plane, loaded as a [1, 1, hl, wl] strip, viewed [hl, wl], then [hl, wl, 1],
      and repeated along the batch axis: its element (p, q, r) is the strip's element (0, 0, p, q), whatever `r`.
-/
import Idealize.ShloMosaic.PureOps.Ideal
import Idealize.ShloMosaic.Lib.ValueIdx
import Idealize.ShloMosaic.Lib.Pipeline.Value

noncomputable section

namespace Cert.Stencil

open Idealize.ShloMosaic Idealize.ShloMosaic.ValueIdx

variable {α : Type}

/-- A window of a [128, 128, 128] block at offsets (sh, sw, 0), at (p, q, r): the block at (sh + p, sw + q, r). -/
theorem window_apply {hl wl : ℕ} (sh sw : ℕ) (x : (⟨3, ![128, 128, 128]⟩ : Shape).Idx → α)
    (hs : (⟨3, ![128, 128, 128]⟩ : Shape).Slices ![sh, sw, 0] ⟨3, ![hl, wl, 128]⟩)
    (p : Fin hl) (q : Fin wl) (r : Fin 128) (hp : sh + p.val < 128) (hq : sw + q.val < 128) :
    extractStridedSlice ⟨3, ![hl, wl, 128]⟩ ![sh, sw, 0] x hs (ix3 p q r)
      = x (ix3 (⟨sh + p.val, hp⟩ : Fin 128) (⟨sw + q.val, hq⟩ : Fin 128) r) :=
  extractStridedSlice_apply ![sh, sw, 0] x hs (ix3 p q r) _ fun a => match a with
    | ⟨0, _⟩ => rfl
    | ⟨1, _⟩ => rfl
    | ⟨2, _⟩ => by show r.val = 0 + r.val; omega

/-- A [1, 1, hl, wl] strip viewed [hl, wl], then [hl, wl, 1], repeated along the last axis, at (p, q, r): the strip at
    (0, 0, p, q). -/
theorem strip_apply {hl wl : ℕ} (wv : (⟨4, ![1, 1, hl, wl]⟩ : Shape).Idx → α)
    (h1 : (⟨4, ![1, 1, hl, wl]⟩ : Shape).ShapeCasts ⟨2, ![hl, wl]⟩)
    (h2 : (⟨2, ![hl, wl]⟩ : Shape).ShapeCasts ⟨3, ![hl, wl, 1]⟩)
    (h3 : (⟨3, ![hl, wl, 1]⟩ : Shape).Broadcasts ⟨3, ![hl, wl, 128]⟩)
    (p : Fin hl) (q : Fin wl) (r : Fin 128) :
    broadcastTo ⟨3, ![hl, wl, 128]⟩ (shapeCast ⟨3, ![hl, wl, 1]⟩ (shapeCast ⟨2, ![hl, wl]⟩ wv h1) h2) h3 (ix3 p q r)
      = wv (ix4 (0 : Fin 1) (0 : Fin 1) p q) := by
  refine (broadcastTo_apply _ h3 (ix3 p q r) (ix3 p q (0 : Fin 1)) fun a => ?_).trans ?_
  · match a with
    | ⟨0, _⟩ =>
      show p.val = if hl = 1 then 0 else p.val
      split_ifs with h
      · have := p.isLt; omega
      · rfl
    | ⟨1, _⟩ =>
      show q.val = if wl = 1 then 0 else q.val
      split_ifs with h
      · have := q.isLt; omega
      · rfl
    | ⟨2, _⟩ => show (0 : ℕ) = if (1 : ℕ) = 1 then 0 else r.val; rw [if_pos rfl]
  refine (shapeCast_apply _ h2 (ix3 p q (0 : Fin 1)) (ix2 p q) ?_).trans ?_
  · rw [Shape.rowMajor_val_two, Shape.rowMajor_val_three]
    show p.val * wl + q.val = (p.val * wl + q.val) * 1 + 0
    omega
  refine shapeCast_apply _ h1 (ix2 p q) (ix4 (0 : Fin 1) (0 : Fin 1) p q) ?_
  rw [Shape.rowMajor_val_four, Shape.rowMajor_val_two]
  show ((0 * 1 + 0) * hl + p.val) * wl + q.val = p.val * wl + q.val
  simp

/-- One accumulation's stored value at (p, q, r), with a window of the value block: what was in the accumulator there,
    plus the value block at the source (sh + p, sw + q, r) times the weight strip at (p, q). (A change of float format is
    the identity on extended reals, and a view of a block at its own shape is the block.) -/
theorem contrib_apply {hl wl : ℕ} (sh sw : ℕ) (x2 : FVec Ideal ⟨3, ![128, 128, 128]⟩ .bf16)
    (wv : (⟨4, ![1, 1, hl, wl]⟩ : Shape).Idx → Ideal .bf16) (accl : (⟨3, ![hl, wl, 128]⟩ : Shape).Idx → Ideal .f32)
    (hs : (⟨3, ![128, 128, 128]⟩ : Shape).Slices ![sh, sw, 0] ⟨3, ![hl, wl, 128]⟩)
    (h1 : (⟨4, ![1, 1, hl, wl]⟩ : Shape).ShapeCasts ⟨2, ![hl, wl]⟩)
    (h2 : (⟨2, ![hl, wl]⟩ : Shape).ShapeCasts ⟨3, ![hl, wl, 1]⟩)
    (h3 : (⟨3, ![hl, wl, 1]⟩ : Shape).Broadcasts ⟨3, ![hl, wl, 128]⟩)
    (h4 : (⟨3, ![hl, wl, 128]⟩ : Shape).ShapeCasts ⟨3, ![hl, wl, 128]⟩)
    (hb : FTy.bits .bf16 < FTy.bits .f32)
    (p : Fin hl) (q : Fin wl) (r : Fin 128) (hp : sh + p.val < 128) (hq : sw + q.val < 128) :
    addf (F := Ideal) (shapeCast ⟨3, ![hl, wl, 128]⟩ accl h4)
        (extf .f32 (mulf (extractStridedSlice ⟨3, ![hl, wl, 128]⟩ ![sh, sw, 0] x2 hs)
          (broadcastTo ⟨3, ![hl, wl, 128]⟩ (shapeCast ⟨3, ![hl, wl, 1]⟩ (shapeCast ⟨2, ![hl, wl]⟩ wv h1) h2) h3)) hb)
        (ix3 p q r)
      = accl (ix3 p q r) + x2 (ix3 (⟨sh + p.val, hp⟩ : Fin 128) (⟨sw + q.val, hq⟩ : Fin 128) r)
          * wv (ix4 (0 : Fin 1) (0 : Fin 1) p q) := by
  show shapeCast ⟨3, ![hl, wl, 128]⟩ accl h4 (ix3 p q r)
      + extractStridedSlice ⟨3, ![hl, wl, 128]⟩ ![sh, sw, 0] x2 hs (ix3 p q r)
        * broadcastTo ⟨3, ![hl, wl, 128]⟩ (shapeCast ⟨3, ![hl, wl, 1]⟩ (shapeCast ⟨2, ![hl, wl]⟩ wv h1) h2) h3 (ix3 p q r) = _
  rw [shapeCast_self, window_apply sh sw x2 hs p q r hp hq, strip_apply]

/-- The same with the whole value block (the centre displacement: no window is cut). -/
theorem contrib_whole_apply (x2 : FVec Ideal ⟨3, ![128, 128, 128]⟩ .bf16)
    (wv : (⟨4, ![1, 1, 128, 128]⟩ : Shape).Idx → Ideal .bf16) (accl : (⟨3, ![128, 128, 128]⟩ : Shape).Idx → Ideal .f32)
    (h1 : (⟨4, ![1, 1, 128, 128]⟩ : Shape).ShapeCasts ⟨2, ![128, 128]⟩)
    (h2 : (⟨2, ![128, 128]⟩ : Shape).ShapeCasts ⟨3, ![128, 128, 1]⟩)
    (h3 : (⟨3, ![128, 128, 1]⟩ : Shape).Broadcasts ⟨3, ![128, 128, 128]⟩)
    (h4 : (⟨3, ![128, 128, 128]⟩ : Shape).ShapeCasts ⟨3, ![128, 128, 128]⟩)
    (hb : FTy.bits .bf16 < FTy.bits .f32)
    (p : Fin 128) (q : Fin 128) (r : Fin 128) :
    addf (F := Ideal) (shapeCast ⟨3, ![128, 128, 128]⟩ accl h4)
        (extf .f32 (mulf x2
          (broadcastTo ⟨3, ![128, 128, 128]⟩ (shapeCast ⟨3, ![128, 128, 1]⟩ (shapeCast ⟨2, ![128, 128]⟩ wv h1) h2) h3)) hb)
        (ix3 p q r)
      = accl (ix3 p q r) + x2 (ix3 p q r) * wv (ix4 (0 : Fin 1) (0 : Fin 1) p q) := by
  show shapeCast ⟨3, ![128, 128, 128]⟩ accl h4 (ix3 p q r)
      + x2 (ix3 p q r)
        * broadcastTo ⟨3, ![128, 128, 128]⟩ (shapeCast ⟨3, ![128, 128, 1]⟩ (shapeCast ⟨2, ![128, 128]⟩ wv h1) h2) h3 (ix3 p q r) = _
  rw [shapeCast_self, strip_apply]

end Cert.Stencil

end
-- ==== Proof.Accumulate.lean ====
/-
  One accumulation of the stencil in a buffer filled by rectangular stores.

  The accumulator is a [128, 128, 128] buffer (grid rows, grid columns, batch positions of one tile). Displacement (i, j)
  is accumulated by ONE store: into the rectangle of destination cells that have a source cell — rows `hd … hd + hl - 1`,
  columns `wd … wd + wl - 1` — it writes what the accumulator held there plus the value block at the source cell
  (sh + p, sw + q) times the weight at the source cell. Cells outside the rectangle keep what they held. So if the
  accumulator held `A h w r` before, it holds `A h w r + tap x0 x1 i j h w r` after (`acc_step`).

  `stored_value` / `stored_value_whole` read the stored value at one element, when the operands are loads: of the
  accumulator after the earlier stores (through the store's own rectangle), of the whole value block, and of the
  displacement's window of the weight array.
-/
import Idealize.ShloMosaic.Lib.WholeRead
import proofs.«407005_j39745627357597_4_alg».proof.Proof.UnitPiece
import proofs.«407005_j39745627357597_4_alg».proof.Proof.Stencil
import proofs.«407005_j39745627357597_4_alg».proof.Proof.Layout

noncomputable section

namespace Cert.Stencil

open Idealize.ShloMosaic Idealize.ShloMosaic.ValueIdx

/-- One tile of the value array: the whole grid, 128 batch positions. -/
abbrev Blk : Shape := ⟨3, ![128, 128, 128]⟩
/-- The weight array: a 128 × 128 plane per displacement. -/
abbrev Wts : Shape := ⟨4, ![3, 3, 128, 128]⟩

theorem acc_step [∀ e, Nonempty (Elt Ideal e)] (x0 : Blk.Idx → EReal) (x1 : Wts.Idx → EReal)
    (L : List (View.Piece (Elt Ideal) Blk .f32)) (A : Fin 128 → Fin 128 → Fin 128 → EReal)
    (i j : Fin 3) (hd wd sh sw hl wl : ℕ)
    (inb : ∀ a, (![hd, wd, 0] : Fin 3 → ℕ) a + (![hl, wl, 128] : Fin 3 → ℕ) a ≤ Blk.size a)
    (pay : (Rect.unit (s := Blk) ![hd, wd, 0] ![hl, wl, 128] inb).shape.Idx → Elt Ideal .f32)
    (hrow : ∀ h : Fin 128, (hd ≤ h.val ∧ h.val < hd + hl) ↔ SrcOk i h)
    (hcol : ∀ w : Fin 128, (wd ≤ w.val ∧ w.val < wd + wl) ↔ SrcOk j w)
    (hsh : sh + i.val = hd + 1) (hsw : sw + j.val = wd + 1)
    (hpay : ∀ (p : Fin hl) (q : Fin wl) (r : Fin 128) (h w h' w' : Fin 128), h.val = hd + p.val → w.val = wd + q.val →
        h'.val = sh + p.val → w'.val = sw + q.val →
        pay (ix3 p q r) = View.canon L (ix3 h w r) + x0 (ix3 h' w' r) * x1 (ix4 i j h' w'))
    (hL : ∀ h w r, View.canon L (ix3 h w r) = A h w r) :
    ∀ h w r, View.canon ((⟨Rect.unit ![hd, wd, 0] ![hl, wl, 128] inb, pay⟩ : View.Piece (Elt Ideal) Blk .f32) :: L) (ix3 h w r)
      = A h w r + tap x0 x1 i j h w r := by
  intro h w r
  rw [← step_eq]
  by_cases ok : SrcOk i h ∧ SrcOk j w
  · rw [dif_pos ok]
    obtain ⟨r1, r2⟩ := (hrow h).mpr ok.1
    obtain ⟨c1, c2⟩ := (hcol w).mpr ok.2
    have o1 := ok.1; have o2 := ok.2
    unfold SrcOk at o1 o2
    rw [canon_unit_of_mem inb pay L (ix3 h w r)
      (ix3 (⟨h.val - hd, by omega⟩ : Fin hl) (⟨w.val - wd, by omega⟩ : Fin wl) r) (fun a => match a with
        | ⟨0, _⟩ => by show h.val = hd + (h.val - hd); omega
        | ⟨1, _⟩ => by show w.val = wd + (w.val - wd); omega
        | ⟨2, _⟩ => by show r.val = 0 + r.val; omega)]
    rw [hpay _ _ r h w (src i h ok.1) (src j w ok.2) (by show h.val = hd + (h.val - hd); omega)
      (by show w.val = wd + (w.val - wd); omega) (by show h.val + 1 - i.val = sh + (h.val - hd); omega)
      (by show w.val + 1 - j.val = sw + (w.val - wd); omega), hL]
  · rw [dif_neg ok, ← hL]
    rcases not_and_or.mp ok with h0 | h1
    · have := (hrow h).not.mpr h0
      exact canon_unit_of_not_mem inb pay L (ix3 h w r) (0 : Fin 3) (by show h.val < hd ∨ hd + hl ≤ h.val; omega)
    · have := (hcol w).not.mpr h1
      exact canon_unit_of_not_mem inb pay L (ix3 h w r) (1 : Fin 3) (by show w.val < wd ∨ wd + wl ≤ w.val; omega)

/-- Displacement index 0 (source one row below): rows 0 … 126 have a source. -/
theorem rows_of_first (h : Fin 128) : (0 ≤ h.val ∧ h.val < 0 + 127) ↔ SrcOk 0 h := by
  unfold SrcOk; have := h.isLt; show _ ↔ ((0 : ℕ) ≤ h.val + 1 ∧ h.val + 1 - 0 < 128); omega

/-- Displacement index 1 (same row): every row has a source. -/
theorem rows_of_mid (h : Fin 128) : (0 ≤ h.val ∧ h.val < 0 + 128) ↔ SrcOk 1 h := by
  unfold SrcOk; have := h.isLt; show _ ↔ ((1 : ℕ) ≤ h.val + 1 ∧ h.val + 1 - 1 < 128); omega

/-- Displacement index 2 (source one row above): rows 1 … 127 have a source. -/
theorem rows_of_last (h : Fin 128) : (1 ≤ h.val ∧ h.val < 1 + 127) ↔ SrcOk 2 h := by
  unfold SrcOk; have := h.isLt; show _ ↔ ((2 : ℕ) ≤ h.val + 1 ∧ h.val + 1 - 2 < 128); omega

variable {sig : RefSig} {κ : Kind}

/-- What one accumulating store writes at (p, q, r) of its rectangle: the accumulator's cell (hd + p, wd + q) as the
    earlier stores left it, plus the value block at the source cell (sh + p, sw + q) times displacement (i, j)'s weight
    there. -/
theorem stored_value [∀ e, Nonempty (Elt Ideal e)]
    (a1 : Memref sig κ .vmem Blk .f32) (h1 : a1.IsWhole) (a2 : Memref sig κ .vmem Wts .bf16) (h2 : a2.IsWhole)
    (v : View sig κ .vmem Blk .f32) (x0 : Vec Ideal Blk .f32) (x1 : Vec Ideal Wts .bf16)
    (L : List (View.Piece (Elt Ideal) Blk .f32))
    (i j : Fin 3) (oi oj : ℕ) (hoi : oi = i.val) (hoj : oj = j.val) (hd wd sh sw hl wl : ℕ)
    (inb3 : ∀ a, (![hd, wd, 0] : Fin 3 → ℕ) a + (![hl, wl, 128] : Fin 3 → ℕ) a ≤ Blk.size a)
    (inb2 : ∀ a, (![oi, oj, sh, sw] : Fin 4 → ℕ) a + (![1, 1, hl, wl] : Fin 4 → ℕ) a ≤ Wts.size a)
    (inb1 : ∀ a, (![0, 0, 0] : Fin 3 → ℕ) a + Blk.size a ≤ Blk.size a)
    (hs : Blk.Slices ![sh, sw, 0] ⟨3, ![hl, wl, 128]⟩)
    (hc1 : (⟨4, ![1, 1, hl, wl]⟩ : Shape).ShapeCasts ⟨2, ![hl, wl]⟩)
    (hc2 : (⟨2, ![hl, wl]⟩ : Shape).ShapeCasts ⟨3, ![hl, wl, 1]⟩)
    (hb3 : (⟨3, ![hl, wl, 1]⟩ : Shape).Broadcasts ⟨3, ![hl, wl, 128]⟩)
    (hSS : (⟨3, ![hl, wl, 128]⟩ : Shape).ShapeCasts ⟨3, ![hl, wl, 128]⟩) (hBB : Blk.ShapeCasts Blk)
    (hbits : FTy.bits .bf16 < FTy.bits .f32)
    (p : Fin hl) (q : Fin wl) (r : Fin 128) (h w h' w' : Fin 128) (e1 : h.val = hd + p.val) (e2 : w.val = wd + q.val)
    (e3 : h'.val = sh + p.val) (e4 : w'.val = sw + q.val) :
    addf (F := Ideal) (shapeCast ⟨3, ![hl, wl, 128]⟩
          (v.readCov L (Rect.unit (s := Blk) ![hd, wd, 0] ![hl, wl, 128] inb3).toLoadRect) hSS)
        (extf .f32 (mulf
          (extractStridedSlice ⟨3, ![hl, wl, 128]⟩ ![sh, sw, 0]
            (truncf .bf16 (shapeCast Blk
              (View.readAt (Elt Ideal) a1.view (Rect.unit (s := Blk) ![0, 0, 0] Blk.size inb1).toLoadRect (h1.unread x0)) hBB) hbits) hs)
          (broadcastTo ⟨3, ![hl, wl, 128]⟩ (shapeCast ⟨3, ![hl, wl, 1]⟩ (shapeCast ⟨2, ![hl, wl]⟩
            (View.readAt (Elt Ideal) a2.view (Rect.unit (s := Wts) ![oi, oj, sh, sw] ![1, 1, hl, wl] inb2).toLoadRect (h2.unread x1))
            hc1) hc2) hb3)) hbits)
        (ix3 p q r)
      = View.canon L (ix3 h w r) + x0 (ix3 h' w' r) * x1 (ix4 i j h' w') := by
  have hh' := h'.isLt
  have hw' := w'.isLt
  refine (contrib_apply sh sw _ _ _ hs hc1 hc2 hb3 hSS hbits p q r (by omega) (by omega)).trans ?_
  congr 1
  · rw [View.readCov_eq_canon']
    show View.canon L _ = View.canon L _
    congr 1
    funext a
    apply Fin.ext
    match a with
    | ⟨0, _⟩ => show hd + 1 * p.val = h.val; omega
    | ⟨1, _⟩ => show wd + 1 * q.val = w.val; omega
    | ⟨2, _⟩ => show 0 + 1 * r.val = r.val; omega
  · congr 1
    · rw [truncf_apply]
      refine (congrFun (shapeCast_self (s := Blk) _ hBB) _).trans ?_
      rw [h1.readAt_unread]
      congr 1
      funext a
      apply Fin.ext
      match a with
      | ⟨0, _⟩ => show 0 + 1 * (sh + p.val) = h'.val; omega
      | ⟨1, _⟩ => show 0 + 1 * (sw + q.val) = w'.val; omega
      | ⟨2, _⟩ => show 0 + 1 * r.val = r.val; omega
    · rw [h2.readAt_unread]
      congr 1
      funext a
      apply Fin.ext
      match a with
      | ⟨0, _⟩ => show oi + 1 * 0 = i.val; omega
      | ⟨1, _⟩ => show oj + 1 * 0 = j.val; omega
      | ⟨2, _⟩ => show sh + 1 * p.val = h'.val; omega
      | ⟨3, _⟩ => show sw + 1 * q.val = w'.val; omega

/-- The same for the centre displacement, whose store covers the whole accumulator and cuts no window. -/
theorem stored_value_whole [∀ e, Nonempty (Elt Ideal e)]
    (a1 : Memref sig κ .vmem Blk .f32) (h1 : a1.IsWhole) (a2 : Memref sig κ .vmem Wts .bf16) (h2 : a2.IsWhole)
    (v : View sig κ .vmem Blk .f32) (x0 : Vec Ideal Blk .f32) (x1 : Vec Ideal Wts .bf16)
    (L : List (View.Piece (Elt Ideal) Blk .f32))
    (i j : Fin 3) (oi oj : ℕ) (hoi : oi = i.val) (hoj : oj = j.val)
    (inb3 : ∀ a, (![0, 0, 0] : Fin 3 → ℕ) a + (![128, 128, 128] : Fin 3 → ℕ) a ≤ Blk.size a)
    (inb2 : ∀ a, (![oi, oj, 0, 0] : Fin 4 → ℕ) a + (![1, 1, 128, 128] : Fin 4 → ℕ) a ≤ Wts.size a)
    (inb1 : ∀ a, (![0, 0, 0] : Fin 3 → ℕ) a + Blk.size a ≤ Blk.size a)
    (hc1 : (⟨4, ![1, 1, 128, 128]⟩ : Shape).ShapeCasts ⟨2, ![128, 128]⟩)
    (hc2 : (⟨2, ![128, 128]⟩ : Shape).ShapeCasts ⟨3, ![128, 128, 1]⟩)
    (hb3 : (⟨3, ![128, 128, 1]⟩ : Shape).Broadcasts ⟨3, ![128, 128, 128]⟩)
    (hBB : Blk.ShapeCasts Blk) (hbits : FTy.bits .bf16 < FTy.bits .f32)
    (p : Fin 128) (q : Fin 128) (r : Fin 128) (h w h' w' : Fin 128) (e1 : h.val = 0 + p.val) (e2 : w.val = 0 + q.val)
    (e3 : h'.val = 0 + p.val) (e4 : w'.val = 0 + q.val) :
    addf (F := Ideal) (shapeCast Blk
          (v.readCov L (Rect.unit (s := Blk) ![0, 0, 0] ![128, 128, 128] inb3).toLoadRect) hBB)
        (extf .f32 (mulf
          (truncf .bf16 (shapeCast Blk
              (View.readAt (Elt Ideal) a1.view (Rect.unit (s := Blk) ![0, 0, 0] Blk.size inb1).toLoadRect (h1.unread x0)) hBB) hbits)
          (broadcastTo Blk (shapeCast ⟨3, ![128, 128, 1]⟩ (shapeCast ⟨2, ![128, 128]⟩
            (View.readAt (Elt Ideal) a2.view (Rect.unit (s := Wts) ![oi, oj, 0, 0] ![1, 1, 128, 128] inb2).toLoadRect (h2.unread x1))
            hc1) hc2) hb3)) hbits)
        (ix3 p q r)
      = View.canon L (ix3 h w r) + x0 (ix3 h' w' r) * x1 (ix4 i j h' w') := by
  refine (contrib_whole_apply _ _ _ hc1 hc2 hb3 hBB hbits p q r).trans ?_
  congr 1
  · rw [View.readCov_eq_canon']
    show View.canon L _ = View.canon L _
    congr 1
    funext a
    apply Fin.ext
    match a with
    | ⟨0, _⟩ => show 0 + 1 * p.val = h.val; omega
    | ⟨1, _⟩ => show 0 + 1 * q.val = w.val; omega
    | ⟨2, _⟩ => show 0 + 1 * r.val = r.val; omega
  · congr 1
    · rw [truncf_apply]
      refine (congrFun (shapeCast_self (s := Blk) _ hBB) _).trans ?_
      rw [h1.readAt_unread]
      congr 1
      funext a
      apply Fin.ext
      match a with
      | ⟨0, _⟩ => show 0 + 1 * p.val = h'.val; omega
      | ⟨1, _⟩ => show 0 + 1 * q.val = w'.val; omega
      | ⟨2, _⟩ => show 0 + 1 * r.val = r.val; omega
    · rw [h2.readAt_unread]
      congr 1
      funext a
      apply Fin.ext
      match a with
      | ⟨0, _⟩ => show oi + 1 * 0 = i.val; omega
      | ⟨1, _⟩ => show oj + 1 * 0 = j.val; omega
      | ⟨2, _⟩ => show 0 + 1 * p.val = h'.val; omega
      | ⟨3, _⟩ => show 0 + 1 * q.val = w'.val; omega

end Cert.Stencil

end
-- ==== Proof.KernelBlock.lean ====
/-
  What the kernel's body leaves in its output tile.

  The body clears the output tile, then for each of the nine displacements in order adds, into the rectangle of cells that
  have a source cell, the shifted window of the value tile times the displacement's weights at the source, and at the end
  replaces the tile by its logistic. The tile after the body is therefore the newest store's value: the logistic of
  what the ten earlier stores left. What they left is read store by store, newest first (`Cert.Stencil.acc_step`), down
  to the clearing store: the zero word plus the nine contributions in order, which is `Cert.Stencil.total` of the value
  tile and the weight array.

  Per store, in `acc_step`'s arguments: the displacement (i, j); the destination rectangle's first row and column
  (hd, wd); the source window's first row and column (sh, sw), which is also where the weight window starts; the
  rectangle's extent (hl, wl). Displacement index 0 reads one row (column) below, so the destination starts at 0, the
  source at 1, and 127 rows (columns) take part; index 2 is the mirror image; index 1 is the row (column) itself.
-/
import proofs.«407005_j39745627357597_4_alg».proof.Proof.Gen.KernelIdeal.Frame
import Idealize.ShloMosaic.Lib.Pipeline.Value
import Idealize.ShloMosaic.Lib.Tactic
import proofs.«407005_j39745627357597_4_alg».proof.Proof.Accumulate

set_option maxRecDepth 16384

noncomputable section

namespace Cert.KernelIdeal.Block

open Idealize.ShloMosaic Idealize.ShloMosaic.TcCoe Idealize.ShloMosaic.ValueIdx Idealize.SL.Sem
open Cert.KernelIdeal Cert.KernelIdeal.Gen Cert.Stencil

theorem zero_offsets : (![0, 0, 0] : Fin 3 → Nat) = fun _ => 0 := funext fun a => by fin_cases a <;> rfl

/-- The output tile after the body, for any value tile `x0` and weight array `x1` in the input buffers. -/
theorem tile_value (c : Dev nD) (i : grid0.Coords) (a1 : Memref sig .tc .vmem S128x128x128 .f32) (h1 : a1.IsWhole)
    (a2 : Memref sig .tc .vmem S3x3x128x128 .bf16) (h2 : a2.IsWhole) (a3 : Memref sig .tc .vmem S128x128x128 .f32)
    (h3 : a3.IsWhole) (x0 : Vec Ideal S128x128x128 .f32) (x1 : Vec Ideal S3x3x128x128 .bf16) :
    out0_A_2 (F := Ideal) c i a1 h1 a2 h2 a3 h3 x0 x1 = Cert.Stencil.result x0 x1 := by
  unfold out0_A_2
  rw [View.read_writes_junk_eq_canon]
  unfold kernelRun0_A
  dsimp only
  sl_unfold_words
  -- the newest store covers the tile: the tile is its value, the logistic of the accumulator read back whole
  rw [View.canon_cons_unit_zero (S := S128x128x128) zero_offsets]
  funext y
  obtain ⟨h, w, r, rfl⟩ : ∃ h w r, y = ix3 h w r := ⟨y 0, y 1, y 2, eq_ix3 y⟩
  unfold k0_pay3 Cert.Stencil.result
  show Ideal.logistic (shapeCast S128x128x128 _ _ (ix3 h w r)) = Ideal.logistic (total x0 x1 h w r)
  rw [shapeCast_self, View.readCov_eq_canon']
  congr 1
  show View.canon _ _ = _
  rw [show (Rect.unit (s := S128x128x128) ![0, 0, 0] ![128, 128, 128] inb_S128x128x128_S128x128x128_0_0_0).toLoadRect.idx (ix3 h w r)
      = ix3 h w r from funext fun a => Fin.ext (match a with
        | ⟨0, _⟩ => by show 0 + 1 * h.val = h.val; omega
        | ⟨1, _⟩ => by show 0 + 1 * w.val = w.val; omega
        | ⟨2, _⟩ => by show 0 + 1 * r.val = r.val; omega)]
  revert h w r
  unfold total
  -- displacement (2, 2): rows and columns 1 … 127 from rows and columns 0 … 126
  refine acc_step x0 x1 _ _ 2 2 1 1 0 0 127 127 _ _ rows_of_last rows_of_last rfl rfl
    (fun p q r h w h' w' e1 e2 e3 e4 => stored_value a1 h1 a2 h2 _ x0 x1 _ 2 2 2 2 rfl rfl 1 1 0 0 127 127
      _ _ _ _ _ _ _ _ _ _ p q r h w h' w' e1 e2 e3 e4) ?_
  -- displacement (2, 1): rows 1 … 127 from rows 0 … 126, every column
  refine acc_step x0 x1 _ _ 2 1 1 0 0 0 127 128 _ _ rows_of_last rows_of_mid rfl rfl
    (fun p q r h w h' w' e1 e2 e3 e4 => stored_value a1 h1 a2 h2 _ x0 x1 _ 2 1 2 1 rfl rfl 1 0 0 0 127 128
      _ _ _ _ _ _ _ _ _ _ p q r h w h' w' e1 e2 e3 e4) ?_
  -- displacement (2, 0): rows 1 … 127 from rows 0 … 126, columns 0 … 126 from columns 1 … 127
  refine acc_step x0 x1 _ _ 2 0 1 0 0 1 127 127 _ _ rows_of_last rows_of_first rfl rfl
    (fun p q r h w h' w' e1 e2 e3 e4 => stored_value a1 h1 a2 h2 _ x0 x1 _ 2 0 2 0 rfl rfl 1 0 0 1 127 127
      _ _ _ _ _ _ _ _ _ _ p q r h w h' w' e1 e2 e3 e4) ?_
  -- displacement (1, 2): every row, columns 1 … 127 from columns 0 … 126
  refine acc_step x0 x1 _ _ 1 2 0 1 0 0 128 127 _ _ rows_of_mid rows_of_last rfl rfl
    (fun p q r h w h' w' e1 e2 e3 e4 => stored_value a1 h1 a2 h2 _ x0 x1 _ 1 2 1 2 rfl rfl 0 1 0 0 128 127
      _ _ _ _ _ _ _ _ _ _ p q r h w h' w' e1 e2 e3 e4) ?_
  -- displacement (1, 1): the whole tile onto itself
  refine acc_step x0 x1 _ _ 1 1 0 0 0 0 128 128 _ _ rows_of_mid rows_of_mid rfl rfl
    (fun p q r h w h' w' e1 e2 e3 e4 => stored_value_whole a1 h1 a2 h2 _ x0 x1 _ 1 1 1 1 rfl rfl
      _ _ _ _ _ _ _ _ p q r h w h' w' e1 e2 e3 e4) ?_
  -- displacement (1, 0): every row, columns 0 … 126 from columns 1 … 127
  refine acc_step x0 x1 _ _ 1 0 0 0 0 1 128 127 _ _ rows_of_mid rows_of_first rfl rfl
    (fun p q r h w h' w' e1 e2 e3 e4 => stored_value a1 h1 a2 h2 _ x0 x1 _ 1 0 1 0 rfl rfl 0 0 0 1 128 127
      _ _ _ _ _ _ _ _ _ _ p q r h w h' w' e1 e2 e3 e4) ?_
  -- displacement (0, 2): rows 0 … 126 from rows 1 … 127, columns 1 … 127 from columns 0 … 126
  refine acc_step x0 x1 _ _ 0 2 0 1 1 0 127 127 _ _ rows_of_first rows_of_last rfl rfl
    (fun p q r h w h' w' e1 e2 e3 e4 => stored_value a1 h1 a2 h2 _ x0 x1 _ 0 2 0 2 rfl rfl 0 1 1 0 127 127
      _ _ _ slices_S128x128x128_o1_0_0_S127x127x128 _ _ _ _ _ _ p q r h w h' w' e1 e2 e3 e4) ?_
  -- displacement (0, 1): rows 0 … 126 from rows 1 … 127, every column
  refine acc_step x0 x1 _ _ 0 1 0 0 1 0 127 128 _ _ rows_of_first rows_of_mid rfl rfl
    (fun p q r h w h' w' e1 e2 e3 e4 => stored_value a1 h1 a2 h2 _ x0 x1 _ 0 1 0 1 rfl rfl 0 0 1 0 127 128
      _ _ _ _ _ _ _ _ _ _ p q r h w h' w' e1 e2 e3 e4) ?_
  -- displacement (0, 0): rows and columns 0 … 126 from rows and columns 1 … 127
  refine acc_step x0 x1 _ _ 0 0 0 0 1 1 127 127 _ _ rows_of_first rows_of_first rfl rfl
    (fun p q r h w h' w' e1 e2 e3 e4 => stored_value a1 h1 a2 h2 _ x0 x1 _ 0 0 0 0 rfl rfl 0 0 1 1 127 127
      _ _ _ _ _ _ _ _ _ _ p q r h w h' w' e1 e2 e3 e4) ?_
  -- the clearing store: the zero word everywhere
  intro h w r
  rw [View.canon_unit_zero (S := S128x128x128) zero_offsets]
  rfl

end Cert.KernelIdeal.Block

end
-- ==== Proof.Tile.lean ====
/-
  The stencil of one batch tile is the stencil of the whole array, restricted to the tile.

  The stencil never mixes batch positions: the total at (h, w, b) reads the value array only at batch position `b`. So if
  a tile holds the value array's batch positions `t · 128 … t · 128 + 127`, the total of the tile at (h, w, r) is the total
  of the array at (h, w, t · 128 + r).
-/
import proofs.«407005_j39745627357597_4_alg».proof.Proof.Stencil

noncomputable section

namespace Cert.Stencil

open Idealize.ShloMosaic Idealize.ShloMosaic.ValueIdx

theorem total_tile (xs : (⟨3, ![128, 128, 4096]⟩ : Shape).Idx → EReal) (xt : (⟨3, ![128, 128, 128]⟩ : Shape).Idx → EReal)
    (ws ws' : (⟨4, ![3, 3, 128, 128]⟩ : Shape).Idx → EReal) (t : ℕ)
    (hx : ∀ (h w r : Fin 128) (b : Fin 4096), b.val = t * 128 + r.val → xt (ix3 h w r) = xs (ix3 h w b))
    (hw : ∀ k, ws' k = ws k) (h w r h' w' : Fin 128) (b : Fin 4096)
    (eh : h'.val = h.val) (ew : w'.val = w.val) (eb : b.val = t * 128 + r.val) :
    total xt ws' h w r = total xs ws h' w' b := by
  obtain rfl : h' = h := Fin.ext eh
  obtain rfl : w' = w := Fin.ext ew
  have hx' : ∀ h w, xt (ix3 h w r) = xs (ix3 h w b) := fun h w => hx h w r b eb
  unfold total tap
  simp only [hx', hw]

end Cert.Stencil

end
-- ==== Proof.KernelArray.lean ====
/-
  From the kernel's tiles to its result array.

  The pallas_call walks the batch axis in 32 tiles of 128 positions; at point `t` the value window holds batch positions
  `128 t … 128 t + 127` of the value array (every row and column), the weight window holds the whole weight array, and the
  output tile is written back to the same batch positions of the result. Each tile is the stencil of its value tile
  (`Cert.KernelIdeal.Block.tile_value`), which is the stencil of the whole value array at those batch positions
  (`Cert.Stencil.total_tile`: the stencil never mixes batch positions). The 32 tiles cover the result, so the result is the
  stencil of the value array and the weight array as the region finds them; the one host operation after the region
  views it as [16384, 4096], and the host operations before it made the two arrays from the arguments by changes of shape
  (and a change of float format, the identity on extended reals).
-/
import proofs.«407005_j39745627357597_4_alg».proof.Proof.KernelBlock
import proofs.«407005_j39745627357597_4_alg».proof.Proof.Tile
import Idealize.ShloMosaic.Lib.StableHlo.Run

set_option maxRecDepth 16384

noncomputable section

namespace Cert.KernelIdeal.ArrValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Block Cert.Stencil

variable (m : (ℓ : Loc nD τ sig) → Buf (Elt Ideal) ℓ) (ρ : Dev nD → PrngReg)

/-- The stencil of the value array and the weight array as the region finds them. -/
abbrev G (c : Dev nD) : Buf (Elt Ideal) ((c : Thread nD τ).loc main_v3) :=
  Cert.Stencil.result (V m c main_v0) (V m c main_v2)

/-- The printed index maps, decided over the grid: the value and output windows move along the batch axis with the point,
    the weight window stays. -/
theorem index_facts : ∀ t : Fin cfg0.N,
    win0_0.index t (0 : Fin 3) = 0 ∧ win0_0.index t (1 : Fin 3) = 0 ∧ win0_0.index t (2 : Fin 3) = t.val
    ∧ win0_1.index t (0 : Fin 4) = 0 ∧ win0_1.index t (1 : Fin 4) = 0 ∧ win0_1.index t (2 : Fin 4) = 0
    ∧ win0_1.index t (3 : Fin 4) = 0
    ∧ win0_2.index t (0 : Fin 3) = 0 ∧ win0_2.index t (1 : Fin 3) = 0 ∧ win0_2.index t (2 : Fin 3) = t.val :=
  (by decide +kernel : ∀ t : Fin grid0.N, _)

/-- What point `t` writes back is tile `t` of the stencil of the whole arrays. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold outsAt0
  refine (congrArg _ (tile_value c (grid0.coords t) (ms0_0 t) (hs0_0 t) (ms0_1 t) (hs0_1 t) (ms0_2 t) (hs0_2 t)
    (iblk m c 0 t) (iblk m c 1 t))).trans ?_
  obtain ⟨a0, a1, a2, b0, b1, b2, b3, c0, c1, c2⟩ := index_facts t
  funext y
  obtain ⟨h, w, r, rfl⟩ : ∃ h w r, y = ix3 h w r := ⟨y 0, y 1, y 2, eq_ix3 y⟩
  show Ideal.logistic (total (iblk m c 0 t) (iblk m c 1 t) h w r)
    = Ideal.logistic (total (V m c main_v0) (V m c main_v2)
        ((((cfg0.win 2).blk t).view.emb (ix3 h w r)) 0) ((((cfg0.win 2).blk t).view.emb (ix3 h w r)) 1)
        ((((cfg0.win 2).blk t).view.emb (ix3 h w r)) 2))
  refine congrArg Ideal.logistic (total_tile _ _ _ _ t.val ?_ ?_ h w r _ _ _ ?_ ?_ ?_)
  · intro h w r b eb
    show V m c main_v0 (((cfg0.win 0).blk t).view.emb (ix3 h w r)) = V m c main_v0 (ix3 h w b)
    congr 1
    funext a
    apply Fin.ext
    match a with
    | ⟨0, _⟩ => show win0_0.index t (0 : Fin 3) * 128 + 1 * h.val = h.val; rw [a0]; omega
    | ⟨1, _⟩ => show win0_0.index t (1 : Fin 3) * 128 + 1 * w.val = w.val; rw [a1]; omega
    | ⟨2, _⟩ => show win0_0.index t (2 : Fin 3) * 128 + 1 * r.val = b.val; rw [a2]; omega
  · intro k
    show V m c main_v2 (((cfg0.win 1).blk t).view.emb k) = V m c main_v2 k
    congr 1
    funext a
    apply Fin.ext
    match a with
    | ⟨0, _⟩ => show win0_1.index t (0 : Fin 4) * 3 + 1 * (k 0).val = (k 0).val; rw [b0]; omega
    | ⟨1, _⟩ => show win0_1.index t (1 : Fin 4) * 3 + 1 * (k 1).val = (k 1).val; rw [b1]; omega
    | ⟨2, _⟩ => show win0_1.index t (2 : Fin 4) * 128 + 1 * (k 2).val = (k 2).val; rw [b2]; omega
    | ⟨3, _⟩ => show win0_1.index t (3 : Fin 4) * 128 + 1 * (k 3).val = (k 3).val; rw [b3]; omega
  · show win0_2.index t (0 : Fin 3) * 128 + 1 * h.val = h.val; rw [c0]; omega
  · show win0_2.index t (1 : Fin 3) * 128 + 1 * w.val = w.val; rw [c1]; omega
  · show win0_2.index t (2 : Fin 3) * 128 + 1 * r.val = t.val * 128 + r.val; rw [c2]; omega

/-- An index of the result is in point `t`'s tile iff each coordinate is in the tile's range on its axis. -/
theorem mem_tile (t : Fin cfg0.N) (i : S128x128x4096.Idx) :
    i ∈ ((cfg0.win 2).blk t).view.set ↔ ∀ a : Fin 3, win0_2.index t a * S128x128x128.size a ≤ (i a).val
      ∧ (i a).val < win0_2.index t a * S128x128x128.size a + S128x128x128.size a := by
  show i ∈ ((View.whole main_v3).slice (win0_2.rect t)).set ↔ _
  rw [View.set_slice_whole, Rect.mem_set_unit]
  exact Iff.rfl

/-- The tiles cover the result: batch position `b` is in tile `b / 128`. -/
theorem covered (i : S128x128x4096.Idx) :
    ∃ t : Fin cfg0.N, (cfg0.win 2).flush t = true ∧ i ∈ ((cfg0.win 2).blk t).view.set := by
  have h0 : (i 0).val < 128 := (i 0).isLt
  have h1 : (i 1).val < 128 := (i 1).isLt
  have h2 : (i 2).val < 4096 := (i 2).isLt
  have hN : cfg0.N = 32 := N_0
  refine ⟨⟨(i 2).val / 128, by rw [hN]; omega⟩, flush0_2 _, ?_⟩
  obtain ⟨a0, a1, a2, b0, b1, b2, b3, c0, c1, c2⟩ := index_facts ⟨(i 2).val / 128, by rw [hN]; omega⟩
  rw [mem_tile]
  intro a
  match a with
  | ⟨0, _⟩ =>
    show win0_2.index _ (0 : Fin 3) * 128 ≤ (i 0).val ∧ (i 0).val < win0_2.index _ (0 : Fin 3) * 128 + 128
    rw [c0]; omega
  | ⟨1, _⟩ =>
    show win0_2.index _ (1 : Fin 3) * 128 ≤ (i 1).val ∧ (i 1).val < win0_2.index _ (1 : Fin 3) * 128 + 128
    rw [c1]; omega
  | ⟨2, _⟩ =>
    show win0_2.index _ (2 : Fin 3) * 128 ≤ (i 2).val ∧ (i 2).val < win0_2.index _ (2 : Fin 3) * 128 + 128
    rw [c2]
    show (i 2).val / 128 * 128 ≤ (i 2).val ∧ (i 2).val < (i 2).val / 128 * 128 + 128
    omega

/-- So the result array ends holding the stencil. -/
theorem final (c : Dev nD) : (dats m 0 c).arrAt 2 cfg0.N = G m c :=
  (dats m 0 c).arrAt_eq_of_cover 2 (G m c) (fun t _ => flushed_eq m c t) covered

/-- The value array as the region finds it: the first argument viewed [128, 128, 4096]. -/
theorem V_main_v0 (c : Dev nD) :
    V m c main_v0 = shapeCast S128x128x4096 (m ((c : Thread nD τ).loc main_arg0)) shapeCasts_S16384x4096_S128x128x4096 := by
  show StableHlo.after hostOps0 (fun b => m (c, b)) (Proc.devRef .tc main_v0) = _
  after_results
  rfl

/-- The weight array as the region finds it: the second argument viewed [3, 3, 128, 128], its float format changed. -/
theorem V_main_v2 (c : Dev nD) :
    V m c main_v2 = truncf (F := Ideal) .bf16 (shapeCast S3x3x128x128 (m ((c : Thread nD τ).loc main_arg1)) shapeCasts_S3x3x16384_S3x3x128x128)
      bitsLt_bf16_f32 := by
  show StableHlo.after hostOps0 (fun b => m (c, b)) (Proc.devRef .tc main_v2) = _
  after_results
  rfl

/-- The program's result: the host operation after the region views the result array as [16384, 4096]. -/
theorem tail_eq (c : Dev nD) :
    Pipeline.afterTail₀ cfgs (dats m) 0 (V0 m) [hostOps1] c main_v4
      = shapeCast S16384x4096 (G m c) shapeCasts_S128x128x4096_S16384x4096 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = G m c :=
    (Pipeline.withArrays_arr spec0 launch0.win.arr_inj c (V0 m c) (fun w => (dats m 0 c).arrAt w cfg0.N) 2).trans (final m c)
  rw [e]
  rfl

/-- The run, read: the result at the stencil of the reshaped arguments, the arguments unchanged. -/
theorem run : θ_run defs (onTc (τ := τ) (main (F := Ideal))) ⟨m, fun _ => 0, ρ⟩ fun r => ∀ c : Dev nD,
      r.2.mem ((c : Thread nD τ).loc main_v4)
        = shapeCast S16384x4096
            (Cert.Stencil.result
              (shapeCast S128x128x4096 (m ((c : Thread nD τ).loc main_arg0)) shapeCasts_S16384x4096_S128x128x4096)
              (shapeCast S3x3x128x128 (m ((c : Thread nD τ).loc main_arg1)) shapeCasts_S3x3x16384_S3x3x128x128))
            shapeCasts_S128x128x4096_S16384x4096
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans
        ((tail_eq m c).trans (by unfold G; rw [V_main_v0, V_main_v2]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.ArrValue

end
-- ==== Proof.HostTap.lean ====
/-
  One displacement's contribution as the array program spells it, read at one element.

  The array program multiplies the whole value array by one displacement's weight plane (cut out of the weight array,
  viewed as a plane, repeated along the batch axis), surrounds the product with a border of one cell of a padding value on
  the two grid axes, and cuts a 128 × 128 window out of the bordered array at offset (2 - i, 2 - j). At cell (h, w) that
  window reads the bordered array at (h + 2 - i, w + 2 - j): inside the border that is the product at the source cell
  (h + 1 - i, w + 1 - j), on the border it is the padding value. With the padding value zero this is `tap`.
-/
import Idealize.ShloMosaic.Lib.KernelVsHost
import proofs.«407005_j39745627357597_4_alg».proof.Proof.Stencil

noncomputable section

namespace Cert.Stencil

open Idealize.ShloMosaic Idealize.ShloMosaic.ValueIdx

theorem hostTap_apply (xs : FVec Ideal ⟨3, ![128, 128, 4096]⟩ .f32) (w1 : FVec Ideal ⟨4, ![3, 3, 128, 128]⟩ .f32)
    (pv : FVec Ideal ⟨0, ![]⟩ .f32) (hpv : ∀ k, pv k = 0)
    (i j : Fin 3) (oi oj si sj : ℕ) (hi : oi = i.val) (hj : oj = j.val) (hsi : si + oi = 2) (hsj : sj + oj = 2)
    (hs1 : (⟨4, ![3, 3, 128, 128]⟩ : Shape).Slices ![oi, oj, 0, 0] ⟨4, ![1, 1, 128, 128]⟩)
    (hc : (⟨4, ![1, 1, 128, 128]⟩ : Shape).ShapeCasts ⟨2, ![128, 128]⟩)
    (hb1 : (⟨2, ![128, 128]⟩ : Shape).BroadcastsInDim ⟨3, ![128, 128, 1]⟩ ![0, 1])
    (hb2 : (⟨3, ![128, 128, 1]⟩ : Shape).BroadcastsInDim ⟨3, ![128, 128, 4096]⟩ ![0, 1, 2])
    (hp : (⟨3, ![128, 128, 4096]⟩ : Shape).Pads ![1, 1, 0] ![1, 1, 0] ![0, 0, 0] ⟨3, ![130, 130, 4096]⟩)
    (hu : 0 < (⟨0, ![]⟩ : Shape).numel)
    (hs2 : (⟨3, ![130, 130, 4096]⟩ : Shape).Slices ![si, sj, 0] ⟨3, ![128, 128, 4096]⟩)
    (h w : Fin 128) (b : Fin 4096) :
    extractStridedSlice ⟨3, ![128, 128, 4096]⟩ ![si, sj, 0]
        (pad ⟨3, ![130, 130, 4096]⟩ ![1, 1, 0] ![1, 1, 0] ![0, 0, 0]
          (mulf xs (broadcastInDim ⟨3, ![128, 128, 4096]⟩ ![0, 1, 2] hb2
            (broadcastInDim ⟨3, ![128, 128, 1]⟩ ![0, 1] hb1
              (shapeCast ⟨2, ![128, 128]⟩ (extractStridedSlice ⟨4, ![1, 1, 128, 128]⟩ ![oi, oj, 0, 0] w1 hs1) hc))))
          pv hp hu) hs2 (ix3 h w b)
      = tap xs w1 i j h w b := by
  have hh := h.isLt
  have hw := w.isLt
  have hi3 := i.isLt
  have hj3 := j.isLt
  refine (extractStridedSlice_apply ![si, sj, 0] _ hs2 (ix3 h w b)
    (ix3 (⟨si + h.val, by omega⟩ : Fin 130) (⟨sj + w.val, by omega⟩ : Fin 130) b) fun a => match a with
      | ⟨0, _⟩ => rfl
      | ⟨1, _⟩ => rfl
      | ⟨2, _⟩ => by show b.val = 0 + b.val; omega).trans ?_
  unfold tap
  by_cases ok : SrcOk i h ∧ SrcOk j w
  · rw [dif_pos ok]
    obtain ⟨ok1, ok2⟩ := ok
    have o1 := ok1; have o2 := ok2
    unfold SrcOk at o1 o2
    refine (pad_apply_of_inside ![1, 1, 0] ![1, 1, 0] ![0, 0, 0] _ pv hp hu _ (ix3 (src i h ok1) (src j w ok2) b)
      fun a => match a with
        | ⟨0, _⟩ => by show si + h.val = 1 + (h.val + 1 - i.val) * (0 + 1); omega
        | ⟨1, _⟩ => by show sj + w.val = 1 + (w.val + 1 - j.val) * (0 + 1); omega
        | ⟨2, _⟩ => by show b.val = 0 + b.val * (0 + 1); omega).trans ?_
    show xs _ * _ = xs _ * _
    congr 1
    refine (broadcastInDim_apply ![0, 1, 2] hb2 _ (ix3 (src i h ok1) (src j w ok2) b)
      (ix3 (src i h ok1) (src j w ok2) (0 : Fin 1)) fun a => match a with
        | ⟨0, _⟩ => by show (src i h ok1).val = if (128 : ℕ) = 1 then 0 else (src i h ok1).val; rw [if_neg (by decide)]
        | ⟨1, _⟩ => by show (src j w ok2).val = if (128 : ℕ) = 1 then 0 else (src j w ok2).val; rw [if_neg (by decide)]
        | ⟨2, _⟩ => by show (0 : ℕ) = if (1 : ℕ) = 1 then 0 else b.val; rw [if_pos rfl]).trans ?_
    refine (broadcastInDim_apply ![0, 1] hb1 _ (ix3 (src i h ok1) (src j w ok2) (0 : Fin 1))
      (ix2 (src i h ok1) (src j w ok2)) fun a => match a with
        | ⟨0, _⟩ => by show (src i h ok1).val = if (128 : ℕ) = 1 then 0 else (src i h ok1).val; rw [if_neg (by decide)]
        | ⟨1, _⟩ => by show (src j w ok2).val = if (128 : ℕ) = 1 then 0 else (src j w ok2).val; rw [if_neg (by decide)]).trans ?_
    refine (shapeCast_apply _ hc (ix2 (src i h ok1) (src j w ok2))
      (ix4 (0 : Fin 1) (0 : Fin 1) (src i h ok1) (src j w ok2)) ?_).trans ?_
    · rw [Shape.rowMajor_val_four, Shape.rowMajor_val_two]
      show ((0 * 1 + 0) * 128 + (src i h ok1).val) * 128 + (src j w ok2).val = (src i h ok1).val * 128 + (src j w ok2).val
      omega
    exact extractStridedSlice_apply ![oi, oj, 0, 0] w1 hs1 _ (ix4 i j (src i h ok1) (src j w ok2)) fun a => match a with
      | ⟨0, _⟩ => by show i.val = oi + 0; omega
      | ⟨1, _⟩ => by show j.val = oj + 0; omega
      | ⟨2, _⟩ => by show (src i h ok1).val = 0 + (src i h ok1).val; omega
      | ⟨3, _⟩ => by show (src j w ok2).val = 0 + (src j w ok2).val; omega
  · rw [dif_neg ok]
    rcases not_and_or.mp ok with h0 | h1
    · refine (pad_apply_of_not_inside (s := ⟨3, ![128, 128, 4096]⟩) ![1, 1, 0] ![1, 1, 0] ![0, 0, 0] _ pv hp hu _ (0 : Fin 3) ?_).trans (hpv _)
      unfold SrcOk at h0
      show ¬(1 ≤ si + h.val ∧ (si + h.val - 1) % (0 + 1) = 0 ∧ (si + h.val - 1) / (0 + 1) < 128)
      omega
    · refine (pad_apply_of_not_inside (s := ⟨3, ![128, 128, 4096]⟩) ![1, 1, 0] ![1, 1, 0] ![0, 0, 0] _ pv hp hu _ (1 : Fin 3) ?_).trans (hpv _)
      unfold SrcOk at h1
      show ¬(1 ≤ sj + w.val ∧ (sj + w.val - 1) % (0 + 1) = 0 ∧ (sj + w.val - 1) / (0 + 1) < 128)
      omega

end Cert.Stencil

end
-- ==== Proof.RefValue.lean ====
/-
  The array program computes the stencil.

  It views the value argument as [128, 128, 4096] and the weight argument as [3, 3, 128, 128], starts from an array of the
  zero word, adds for each displacement in order the bordered-and-cut product (`Cert.Stencil.hostTap_apply`: at each
  cell, the displacement's contribution `tap`, the border's padding value being the integer 0 converted to a float), and
  applies `1 / (1 + exp (-·))` with `1` the float word of one — on extended reals the logistic function itself. The result
  is viewed back as [16384, 4096].
-/
import proofs.«407005_j39745627357597_4_alg».proof.Proof.Gen.ReferenceIdeal.Run
import proofs.«407005_j39745627357597_4_alg».proof.Proof.HostTap

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.Stencil

/-- The float word `0x3F800000` is the number one. -/
theorem one_word : Ideal.ofBits .f32 0x3F800000#32 = 1 := by
  simp [Ideal.ofBits, Ideal.ieee, -EReal.coe_mul]; norm_num

/-- The border's padding value: the 32-bit integer zero converted to a float is the number zero. -/
theorem pad_value (k : S_.Idx) : sitofp (F := Ideal) .f32 (constantI S_ 32 0#32) k = 0 := by
  show (((0#32 : BitVec 32).toInt : ℝ) : EReal) = 0
  simp

/-- `1 / (1 + exp (-a))` with the float word of one, element by element, is the logistic of `a`. -/
theorem sigmoid_apply (a : FVec Ideal S128x128x4096 .f32) (y : S128x128x4096.Idx) :
    Host.divf (broadcastInDim S128x128x4096 ![] bcast_S_S128x128x4096 (constant S_ .f32 0x3F800000#32))
      (addf (broadcastInDim S128x128x4096 ![] bcast_S_S128x128x4096 (constant S_ .f32 0x3F800000#32))
        (Host.exp (Host.negf a))) y = Ideal.logistic (a y) := by
  show Ideal.div (Ideal.ofBits .f32 0x3F800000#32) (Ideal.ofBits .f32 0x3F800000#32 + Ideal.exp (-(a y))) = _
  rw [one_word]
  rfl

/-- The reference's result is the stencil of its two arguments, through the three changes of shape. -/
theorem result_eq (m : (ℓ : Loc nD τ sig) → Buf (Elt Ideal) ℓ) (c : Dev nD) :
    res_main_v81 (F := Ideal) m c
      = shapeCast S16384x4096
          (Cert.Stencil.result
            (shapeCast S128x128x4096 (m ((c.tc : Thread nD τ).loc main_arg0)) shapeCasts_S16384x4096_S128x128x4096)
            (shapeCast S3x3x128x128 (m ((c.tc : Thread nD τ).loc main_arg1)) shapeCasts_S3x3x16384_S3x3x128x128))
          shapeCasts_S128x128x4096_S16384x4096 := by
  unfold res_main_v81
  congr 1
  funext y
  obtain ⟨h, w, b, rfl⟩ : ∃ h w b, y = ix3 h w b := ⟨y 0, y 1, y 2, eq_ix3 y⟩
  refine (sigmoid_apply _ _).trans ?_
  unfold Cert.Stencil.result
  congr 1
  simp only [addf_apply]
  rw [hostTap_apply _ _ _ pad_value 0 0 0 0 2 2 rfl rfl rfl rfl,
    hostTap_apply _ _ _ pad_value 0 1 0 1 2 1 rfl rfl rfl rfl,
    hostTap_apply _ _ _ pad_value 0 2 0 2 2 0 rfl rfl rfl rfl,
    hostTap_apply _ _ _ pad_value 1 0 1 0 1 2 rfl rfl rfl rfl,
    hostTap_apply _ _ _ pad_value 1 1 1 1 1 1 rfl rfl rfl rfl,
    hostTap_apply _ _ _ pad_value 1 2 1 2 1 0 rfl rfl rfl rfl,
    hostTap_apply _ _ _ pad_value 2 0 2 0 0 2 rfl rfl rfl rfl,
    hostTap_apply _ _ _ pad_value 2 1 2 1 0 1 rfl rfl rfl rfl,
    hostTap_apply _ _ _ pad_value 2 2 2 2 0 0 rfl rfl rfl rfl]
  rfl

end Cert.ReferenceIdeal.RefValue

end
-- ==== Proof.lean ====
/-
  A nine-point weighted stencil with a logistic, tiled along the batch axis, against its array-program reference.

  Both programs take a value array x : f32[16384, 4096], read as a 128 × 128 grid of batch vectors of length 4096, and a
  weight array w : f32[3, 3, 16384], read as one 128 × 128 weight plane per displacement (dy, dx) ∈ {-1, 0, 1}². The result
  at cell (h, w) is the logistic of the sum, over the nine displacements in order, of x at the source cell
  (h - dy, w - dx) times the displacement's weight AT THE SOURCE cell, a source cell off the grid contributing nothing
  (`Cert.Stencil.result`, Proof/Stencil.lean).

  The reference multiplies the whole array by a weight plane, pads the product with a one-cell border of zeros and cuts the
  shifted window out, nine times, adding the windows up, and applies `1 / (1 + exp (-·))` (Proof/HostTap.lean,
  Proof/RefValue.lean). The kernel walks the batch axis in 32 tiles; in each it clears the output tile, adds for each
  displacement the shifted window of the value tile times the weight window into the rectangle of cells that have a source
  cell, and applies the logistic (Proof/UnitPiece.lean, Proof/Layout.lean, Proof/Accumulate.lean, Proof/KernelBlock.lean);
  the stencil never mixes batch positions, so the tiles are the tiles of the whole array's stencil
  (Proof/Tile.lean, Proof/KernelArray.lean). The two differ where a source cell is off the grid: the reference adds a zero
  there, the kernel adds nothing, and `a + 0 = a` on the extended reals. The kernel's narrower float format for the
  products is the identity on extended reals, and its logistic is the reference's quotient by definition there.
  No step needs the inputs finite.
-/
import proofs.«407005_j39745627357597_4_alg».proof.Defs
import proofs.«407005_j39745627357597_4_alg».proof.Proof.Gen.Kernel
import proofs.«407005_j39745627357597_4_alg».proof.Proof.Gen.Kernel.Skeleton
import proofs.«407005_j39745627357597_4_alg».proof.Proof.Gen.Kernel.Launch
import proofs.«407005_j39745627357597_4_alg».proof.Proof.Gen.Kernel.Points
import proofs.«407005_j39745627357597_4_alg».proof.Proof.Gen.Kernel.Frame
import proofs.«407005_j39745627357597_4_alg».proof.Proof.Gen.KernelIdeal
import proofs.«407005_j39745627357597_4_alg».proof.Proof.Gen.KernelIdeal.Skeleton
import proofs.«407005_j39745627357597_4_alg».proof.Proof.Gen.KernelIdeal.Launch
import proofs.«407005_j39745627357597_4_alg».proof.Proof.Gen.KernelIdeal.Points
import proofs.«407005_j39745627357597_4_alg».proof.Proof.Gen.KernelIdeal.Frame
import proofs.«407005_j39745627357597_4_alg».proof.Proof.Gen.ReferenceIdeal
import proofs.«407005_j39745627357597_4_alg».proof.Proof.Gen.Pre_finite_inputs
import proofs.«407005_j39745627357597_4_alg».proof.Proof.Gen.ReferenceIdeal.Run
import proofs.«407005_j39745627357597_4_alg».proof.Proof.KernelArray
import proofs.«407005_j39745627357597_4_alg».proof.Proof.RefValue
import Idealize.ShloMosaic.Adequacy
import Idealize.ShloMosaic.Init

noncomputable section

namespace Cert.Proof

open Idealize.ShloMosaic Idealize.SL.Sem Cert.Kernel

/-- The word-level kernel runs and leaves its arguments alone: the generated frame. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the stencil of their (agreeing) arguments. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
